-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x256 : Shape := ⟨2, ![256, 256]⟩
abbrev S1x256 : Shape := ⟨2, ![1, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part2 {F : FTy → Type} [FloatOps F] (main_arg7 : FVec F S1x256 .f32) (main_v33 : IVec S_ 1) : IVec S_ 1 :=
  let main_v34 : FVec F S1x256 .f32 := Host.absf main_arg7
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  main_v38

def fn_part1 {F : FTy → Type} [FloatOps F] (main_arg4 : FVec F S256x256 .f32) (main_arg5 : FVec F S1x256 .f32) (main_arg6 : FVec F S1x256 .f32) (main_arg7 : FVec F S1x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_v33

def fn {F : FTy → Type} [FloatOps F] (main_arg0 : FVec F S1024x256 .f32) (main_arg1 : FVec F S1024x256 .f32) (main_arg2 : FVec F S256x256 .f32) (main_arg3 : FVec F S256x256 .f32) (main_arg4 : FVec F S256x256 .f32) (main_arg5 : FVec F S1x256 .f32) (main_arg6 : FVec F S1x256 .f32) (main_arg7 : FVec F S1x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S1024x256 : Shape := ⟨2, ![1024, 256]⟩
abbrev S256x256 : Shape := ⟨2, ![256, 256]⟩
abbrev S1x256 : Shape := ⟨2, ![1, 256]⟩
abbrev S_ : Shape := ⟨0, ![]⟩
abbrev S64x128 : Shape := ⟨2, ![64, 128]⟩
abbrev S128x128 : Shape := ⟨2, ![128, 128]⟩
abbrev S1x128 : Shape := ⟨2, ![1, 128]⟩
abbrev S64x1x128 : Shape := ⟨3, ![64, 1, 128]⟩
abbrev S1x128x128 : Shape := ⟨3, ![1, 128, 128]⟩
abbrev S64x128x128 : Shape := ⟨3, ![64, 128, 128]⟩

abbrev nBuf : Space → Nat
  | .hbm => 28
  | .vmem => 18
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S1x256, .f32⟩
  | .hbm, ⟨16, _⟩ => ⟨S1x256, .f32⟩
  | .hbm, ⟨17, _⟩ => ⟨S_, .f32⟩
  | .hbm, ⟨18, _⟩ => ⟨S1x256, .f32⟩
  | .hbm, ⟨19, _⟩ => ⟨S1x256, .f32⟩
  | .hbm, ⟨20, _⟩ => ⟨S256x256, .f32⟩
  | .hbm, ⟨21, _⟩ => ⟨S256x256, .f32⟩
  | .hbm, ⟨22, _⟩ => ⟨S1x256, .f32⟩
  | .hbm, ⟨23, _⟩ => ⟨S1x256, .f32⟩
  | .hbm, ⟨24, _⟩ => ⟨S256x256, .f32⟩
  | .hbm, ⟨25, _⟩ => ⟨S256x256, .f32⟩
  | .hbm, ⟨26, _⟩ => ⟨S1024x256, .f32⟩
  | .hbm, ⟨27, _⟩ => ⟨S1024x256, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_v0 : Ref sig .tc := ⟨.hbm, 10, rfl⟩
abbrev main_call1_cst : Ref sig .tc := ⟨.hbm, 11, rfl⟩
abbrev main_call1_v0 : Ref sig .tc := ⟨.hbm, 12, rfl⟩
abbrev main_v1 : Ref sig .tc := ⟨.hbm, 13, rfl⟩
abbrev main_call2_cst : Ref sig .tc := ⟨.hbm, 14, rfl⟩
abbrev main_call2_v0 : Ref sig .tc := ⟨.hbm, 15, rfl⟩
abbrev main_v2 : Ref sig .tc := ⟨.hbm, 16, rfl⟩
abbrev main_call3_cst : Ref sig .tc := ⟨.hbm, 17, rfl⟩
abbrev main_call3_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v43 : BitVec 1 := Scalar.cmpi .eq arg2 c1_i32
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  bcast_S_S256x256 : S_.BroadcastsInDim S256x256 (![] : Fin 0 → Fin S256x256.rank)
  bcast_S_S1x256 : S_.BroadcastsInDim S1x256 (![] : Fin 0 → Fin S1x256.rank)
  transposes_S256x256_S256x256_1_0 : S256x256.Transposes [1, 0] S256x256
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  reduces_S64x128x128_S64x128 : S64x128x128.Reduces [2] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S1024x256.size a
  hwx0_0 : ∀ i : grid0.Coords, EltTy.bits .f32 = 32 ∨ (Rect.block (s := S1024x256) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S1024x256.size a
  hwx0_1 : ∀ i : grid0.Coords, EltTy.bits .f32 = 32 ∨ (Rect.block (s := S1024x256) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S256x256.size a
  hwx0_2 : ∀ i : grid0.Coords, EltTy.bits .f32 = 32 ∨ (Rect.block (s := S256x256) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S256x256.size a
  hwx0_3 : ∀ i : grid0.Coords, EltTy.bits .f32 = 32 ∨ (Rect.block (s := S256x256) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x256.size a
  hwx0_4 : ∀ i : grid0.Coords, EltTy.bits .f32 = 32 ∨ (Rect.block (s := S1x256) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x256.size a
  hwx0_5 : ∀ i : grid0.Coords, EltTy.bits .f32 = 32 ∨ (Rect.block (s := S1x256) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S1024x256.size a
  hwx0_6 : ∀ i : grid0.Coords, EltTy.bits .f32 = 32 ∨ (Rect.block (s := S1024x256) S64x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S1024x256.size a
  hwx0_7 : ∀ i : grid0.Coords, EltTy.bits .f32 = 32 ∨ (Rect.block (s := S1024x256) S64x128.size (cc0_transform_7 i) (hinb0_7 i)).WholeWords (EltTy.packing .f32)

variable [Facts₀]

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S64x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1024x256 : Shape := ⟨2, ![1024, 256]⟩
abbrev S256x256 : Shape := ⟨2, ![256, 256]⟩
abbrev S1x256 : Shape := ⟨2, ![1, 256]⟩
abbrev S_ : Shape := ⟨0, ![]⟩
abbrev S1024x256x1 : Shape := ⟨3, ![1024, 256, 1]⟩
abbrev S1x256x256 : Shape := ⟨3, ![1, 256, 256]⟩
abbrev S1024x256x256 : Shape := ⟨3, ![1024, 256, 256]⟩

abbrev nBuf : Space → Nat
  | .hbm => 56
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S1x256, .f32⟩
  | .hbm, ⟨16, _⟩ => ⟨S1x256, .f32⟩
  | .hbm, ⟨17, _⟩ => ⟨S_, .f32⟩
  | .hbm, ⟨18, _⟩ => ⟨S1x256, .f32⟩
  | .hbm, ⟨19, _⟩ => ⟨S1x256, .f32⟩
  | .hbm, ⟨20, _⟩ => ⟨S256x256, .f32⟩
  | .hbm, ⟨21, _⟩ => ⟨S256x256, .f32⟩
  | .hbm, ⟨22, _⟩ => ⟨S1x256, .f32⟩
  | .hbm, ⟨23, _⟩ => ⟨S1x256, .f32⟩
  | .hbm, ⟨24, _⟩ => ⟨S1024x256x1, .f32⟩
  | .hbm, ⟨25, _⟩ => ⟨S1024x256x1, .f32⟩
  | .hbm, ⟨26, _⟩ => ⟨S1x256x256, .f32⟩
  | .hbm, ⟨27, _⟩ => ⟨S1024x256x256, .f32⟩
  | .hbm, ⟨28, _⟩ => ⟨S1024x256x256, .f32⟩
  | .hbm, ⟨29, _⟩ => ⟨S1024x256x256, .f32⟩
  | .hbm, ⟨30, _⟩ => ⟨S1x256x256, .f32⟩
  | .hbm, ⟨31, _⟩ => ⟨S1024x256x256, .f32⟩
  | .hbm, ⟨32, _⟩ => ⟨S1024x256x256, .f32⟩
  | .hbm, ⟨33, _⟩ => ⟨S1024x256x256, .f32⟩
  | .hbm, ⟨34, _⟩ => ⟨S1x256x256, .f32⟩
  | .hbm, ⟨35, _⟩ => ⟨S1024x256x256, .f32⟩
  | .hbm, ⟨36, _⟩ => ⟨S1024x256x256, .f32⟩
  | .hbm, ⟨37, _⟩ => ⟨S1024x256x256, .f32⟩
  | .hbm, ⟨38, _⟩ => ⟨S1x256x256, .f32⟩
  | .hbm, ⟨39, _⟩ => ⟨S1024x256x256, .f32⟩
  | .hbm, ⟨40, _⟩ => ⟨S1024x256x256, .f32⟩
  | .hbm, ⟨41, _⟩ => ⟨S1024x256x256, .f32⟩
  | .hbm, ⟨42, _⟩ => ⟨S1024x256x256, .f32⟩
  | .hbm, ⟨43, _⟩ => ⟨S1024x256x256, .f32⟩
  | .hbm, ⟨44, _⟩ => ⟨S1024x256x256, .f32⟩
  | .hbm, ⟨45, _⟩ => ⟨S_, .f32⟩
  | .hbm, ⟨46, _⟩ => ⟨S1024x256, .f32⟩
  | .hbm, ⟨47, _⟩ => ⟨S1024x256, .f32⟩
  | .hbm, ⟨48, _⟩ => ⟨S1024x256, .f32⟩
  | .hbm, ⟨49, _⟩ => ⟨S1024x256x256, .f32⟩
  | .hbm, ⟨50, _⟩ => ⟨S1024x256x256, .f32⟩
  | .hbm, ⟨51, _⟩ => ⟨S1024x256x256, .f32⟩
  | .hbm, ⟨52, _⟩ => ⟨S_, .f32⟩
  | .hbm, ⟨53, _⟩ => ⟨S1024x256, .f32⟩
  | .hbm, ⟨54, _⟩ => ⟨S1024x256, .f32⟩
  | .hbm, ⟨55, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_v0 : Ref sig .tc := ⟨.hbm, 10, rfl⟩
abbrev main_call1_cst : Ref sig .tc := ⟨.hbm, 11, rfl⟩
abbrev main_call1_v0 : Ref sig .tc := ⟨.hbm, 12, rfl⟩
abbrev main_v1 : Ref sig .tc := ⟨.hbm, 13, rfl⟩
abbrev main_call2_cst : Ref sig .tc := ⟨.hbm, 14, rfl⟩
abbrev main_call2_v0 : Ref sig .tc := ⟨.hbm, 15, rfl⟩
abbrev main_v2 : Ref sig .tc := ⟨.hbm, 16, rfl⟩
abbrev main_call3_cst : Ref sig .tc := ⟨.hbm, 17, rfl⟩
abbrev main_call3_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S_S1x256 : S_.BroadcastsInDim S1x256 (![] : Fin 0 → Fin S1x256.rank)
  bcast_S1024x256_S1024x256x1_0_1 : S1024x256.BroadcastsInDim S1024x256x1 (![0, 1] : Fin 2 → Fin S1024x256x1.rank)
  bcast_S256x256_S1x256x256_1_2 : S256x256.BroadcastsInDim S1x256x256 (![1, 2] : Fin 2 → Fin S1x256x256.rank)
  bcast_S1024x256x1_S1024x256x256_0_1_2 : S1024x256x1.BroadcastsInDim S1024x256x256 (![0, 1, 2] : Fin 3 → Fin S1024x256x256.rank)
  bcast_S1x256x256_S1024x256x256_0_1_2 : S1x256x256.BroadcastsInDim S1024x256x256 (![0, 1, 2] : Fin 3 → Fin S1024x256x256.rank)
  reducesTo_S1024x256x256_S1024x256_d1 : S1024x256x256.ReducesTo [1] S1024x256
  h_S_ : 0 < S_.numel
  bcast_S1x256_S1024x256_0_1 : S1x256.BroadcastsInDim S1024x256 (![0, 1] : Fin 2 → Fin S1024x256.rank)

variable [Facts₀]

class Facts : Prop extends Facts₀ where

variable [Facts]
-- ==== Proof.IntervalSpec.lean ====
/-
  The interval-arithmetic dense layer, as one function of its arrays.

  An input row is an interval `[xl, xr]` per feature and a weight is an interval `[wl, wr]` per
  (feature, unit) pair. The product of two intervals is the interval spanned by the four products of
  their endpoints, so its lower end is the least of those four products and its upper end the greatest.
  The layer adds these ends over the features and then adds the bias interval's ends:

    lower n j = (0 + ∑ k, min (min (xl n k · wl k j) (xl n k · wr k j)) (min (xr n k · wl k j) (xr n k · wr k j))) + bl j
    upper n j = (0 + ∑ k, max (max (xl n k · wl k j) (xl n k · wr k j)) (max (xr n k · wl k j) (xr n k · wr k j))) + br j

  over the extended reals, with 1024 rows, 256 features and 256 units. The leading `0` is the value of
  the all-zero bit pattern, kept as that pattern: both programs start their sums from it.

  One law of finite sums is all that relates a sum taken feature block by feature block to the sum taken
  at once: a sum over 256 features is the sum over the first 128 plus the sum over the last 128. It holds
  in any commutative additive monoid, hence on the extended reals with no finiteness assumption.
-/
import Idealize.ShloMosaic.PureOps.Ideal
import Idealize.ShloMosaic.PureOps.Ideal.Laws
import Idealize.ShloMosaic.Lib.ValueIdx
import Mathlib.Algebra.BigOperators.Fin

noncomputable section

namespace Cert.IntervalLayer

open Idealize.ShloMosaic Idealize.ShloMosaic.ValueIdx

/-- The array shapes of the layer: rows × features, features × units, and a bias row. -/
abbrev Rows : Shape := ⟨2, ![1024, 256]⟩
abbrev Weights : Shape := ⟨2, ![256, 256]⟩
abbrev BiasRow : Shape := ⟨2, ![1, 256]⟩

/-- The start value of both sums: the all-zero pattern read as an extended real. -/
abbrev zeroWord : EReal := Ideal.ofBits .f32 0x00000000#32

/-- The lower end of the product of the intervals `[xl, xr]` and `[wl, wr]`: the least of the four
    endpoint products, nested as both programs nest it. -/
def lowEnd (xl xr wl wr : EReal) : EReal := min (min (xl * wl) (xl * wr)) (min (xr * wl) (xr * wr))

/-- The upper end of that product: the greatest of the four endpoint products. -/
def highEnd (xl xr wl wr : EReal) : EReal := max (max (xl * wl) (xl * wr)) (max (xr * wl) (xr * wr))

/-- The lower end of the output interval at row `n` and unit `j`: the lower ends of the 256 interval
    products added up from the zero pattern, plus the bias interval's lower end. -/
def lowerAt (xl xr : FVec Ideal Rows .f32) (wl wr : FVec Ideal Weights .f32) (bl : FVec Ideal BiasRow .f32)
    (n : Fin 1024) (j : Fin 256) : EReal :=
  (zeroWord + ∑ k : Fin 256, lowEnd (xl (ix2 n k)) (xr (ix2 n k)) (wl (ix2 k j)) (wr (ix2 k j))) + bl (ix2 0 j)

/-- The upper end of the output interval at row `n` and unit `j`, likewise. -/
def upperAt (xl xr : FVec Ideal Rows .f32) (wl wr : FVec Ideal Weights .f32) (br : FVec Ideal BiasRow .f32)
    (n : Fin 1024) (j : Fin 256) : EReal :=
  (zeroWord + ∑ k : Fin 256, highEnd (xl (ix2 n k)) (xr (ix2 n k)) (wl (ix2 k j)) (wr (ix2 k j))) + br (ix2 0 j)

/-- The lower ends of all the layer's output intervals, as one array. -/
def lower (xl xr : FVec Ideal Rows .f32) (wl wr : FVec Ideal Weights .f32) (bl : FVec Ideal BiasRow .f32) :
    FVec Ideal Rows .f32 := fun i => lowerAt xl xr wl wr bl (i 0) (i 1)

/-- The upper ends of all the layer's output intervals, as one array. -/
def upper (xl xr : FVec Ideal Rows .f32) (wl wr : FVec Ideal Weights .f32) (br : FVec Ideal BiasRow .f32) :
    FVec Ideal Rows .f32 := fun i => upperAt xl xr wl wr br (i 0) (i 1)

/-- The arrays read at the position with coordinates `n` and `j`. -/
theorem lower_apply (xl xr : FVec Ideal Rows .f32) (wl wr : FVec Ideal Weights .f32) (bl : FVec Ideal BiasRow .f32)
    (n : Fin 1024) (j : Fin 256) : lower xl xr wl wr bl (ix2 n j) = lowerAt xl xr wl wr bl n j := rfl
theorem upper_apply (xl xr : FVec Ideal Rows .f32) (wl wr : FVec Ideal Weights .f32) (br : FVec Ideal BiasRow .f32)
    (n : Fin 1024) (j : Fin 256) : upper xl xr wl wr br (ix2 n j) = upperAt xl xr wl wr br n j := rfl

/-- Feature `k` of the first block of 128, and of the second, as features of the whole 256. -/
abbrev firstHalf (k : Fin 128) : Fin 256 := ⟨k.val, by omega⟩
abbrev secondHalf (k : Fin 128) : Fin 256 := ⟨128 + k.val, by omega⟩

/-- A sum over the 256 features is the sum over the first 128 plus the sum over the last 128. -/
theorem sum_two_blocks {M : Type*} [AddCommMonoid M] (f : Fin 256 → M) :
    ∑ k : Fin 256, f k = ∑ k : Fin 128, f (firstHalf k) + ∑ k : Fin 128, f (secondHalf k) :=
  Fin.sum_univ_add (fun i : Fin (128 + 128) => f i)

/-- A sum started from `z`, taken as "the first block onto `z`, then the second block onto that", is
    the sum over all 256 features started from `z`: re-bracketing, then the two blocks joined. -/
theorem blockwise_sum {M : Type*} [AddCommMonoid M] (z : M) (f : Fin 256 → M) :
    (z + ∑ k : Fin 128, f (firstHalf k)) + ∑ k : Fin 128, f (secondHalf k) = z + ∑ k : Fin 256, f k := by
  rw [sum_two_blocks, add_assoc]

end Cert.IntervalLayer

end
-- ==== Proof.ReferenceValue.lean ====
/-
  The reference program computes the interval layer.

  Read one operation at a time, the reference forms at row `n`, feature `k` and unit `j` the four
  products of the input interval's ends at `(n, k)` with the weight interval's ends at `(k, j)`, takes
  their least (for the lower output) or greatest (for the upper output), adds these over the 256 features
  starting from the zero pattern, and adds the bias interval's end at `(0, j)`. The three-axis arrays it
  builds on the way are broadcasts: each is read at a position by dropping the axis it was broadcast along,
  which leaves exactly the coordinates `(n, k)`, `(k, j)` and `(0, j)`.

  The weight and bias interval ends are themselves computed from the arguments (a difference and a sum
  with a clipped spread). Here they stay folded: the layer is stated over them as given arrays.
-/
import proofs.«119556_j82231443849327_1_alg».proof.Proof.Gen.ReferenceIdeal.Read
import proofs.«119556_j82231443849327_1_alg».proof.Proof.IntervalSpec

noncomputable section

namespace Cert.IntervalLayer.Reference

open Cert.ReferenceIdeal Cert.ReferenceIdeal.Read Idealize.ShloMosaic Idealize.ShloMosaic.ValueIdx Cert.IntervalLayer

variable (x0 x1 : (⟨S1024x256, .f32⟩ : BufTy).Contents (Elt Ideal))
variable (x2 x3 x4 : (⟨S256x256, .f32⟩ : BufTy).Contents (Elt Ideal))

/-- At row `n`, unit `j` and feature `k`, the reference's least of the four endpoint products is the lower
    end of the interval product of `[x0, x1]` at `(n, k)` with the weight interval at `(k, j)`. -/
theorem least_product (n : Fin 1024) (j k : Fin 256) :
    val_main_v28 (F := Ideal) x0 x1 x2 x3 x4 (idx_main_v29 (ix2 n j) k)
      = lowEnd (x0 (ix2 n k)) (x1 (ix2 n k)) (val_main_v4 (F := Ideal) x2 x3 (ix2 k j))
          (val_main_v5 (F := Ideal) x2 x4 (ix2 k j)) := by
  rw [val_main_v28_apply, val_main_v26_apply, val_main_v27_apply, val_main_v13_apply, val_main_v17_apply,
    val_main_v21_apply, val_main_v25_apply, val_main_v11_apply, val_main_v12_apply, val_main_v15_apply,
    val_main_v16_apply, val_main_v19_apply, val_main_v20_apply, val_main_v23_apply, val_main_v24_apply,
    val_main_v8_apply, val_main_v9_apply, val_main_v10_apply, val_main_v14_apply, val_main_v18_apply,
    val_main_v22_apply]
  rw [show idx_main_v8 (idx_main_v11 (idx_main_v29 (ix2 n j) k)) = ix2 n k from Shape.idx_ext₂ rfl rfl,
    show idx_main_v9 (idx_main_v19 (idx_main_v29 (ix2 n j) k)) = ix2 n k from Shape.idx_ext₂ rfl rfl,
    show idx_main_v10 (idx_main_v12 (idx_main_v29 (ix2 n j) k)) = ix2 k j from Shape.idx_ext₂ rfl rfl,
    show idx_main_v14 (idx_main_v16 (idx_main_v29 (ix2 n j) k)) = ix2 k j from Shape.idx_ext₂ rfl rfl,
    show idx_main_v18 (idx_main_v20 (idx_main_v29 (ix2 n j) k)) = ix2 k j from Shape.idx_ext₂ rfl rfl,
    show idx_main_v22 (idx_main_v24 (idx_main_v29 (ix2 n j) k)) = ix2 k j from Shape.idx_ext₂ rfl rfl]
  rfl

/-- Likewise the reference's greatest of the four endpoint products is the upper end of that interval product. -/
theorem greatest_product (n : Fin 1024) (j k : Fin 256) :
    val_main_v34 (F := Ideal) x0 x1 x2 x3 x4 (idx_main_v35 (ix2 n j) k)
      = highEnd (x0 (ix2 n k)) (x1 (ix2 n k)) (val_main_v4 (F := Ideal) x2 x3 (ix2 k j))
          (val_main_v5 (F := Ideal) x2 x4 (ix2 k j)) := by
  rw [val_main_v34_apply, val_main_v32_apply, val_main_v33_apply, val_main_v13_apply, val_main_v17_apply,
    val_main_v21_apply, val_main_v25_apply, val_main_v11_apply, val_main_v12_apply, val_main_v15_apply,
    val_main_v16_apply, val_main_v19_apply, val_main_v20_apply, val_main_v23_apply, val_main_v24_apply,
    val_main_v8_apply, val_main_v9_apply, val_main_v10_apply, val_main_v14_apply, val_main_v18_apply,
    val_main_v22_apply]
  rw [show idx_main_v8 (idx_main_v11 (idx_main_v35 (ix2 n j) k)) = ix2 n k from Shape.idx_ext₂ rfl rfl,
    show idx_main_v9 (idx_main_v19 (idx_main_v35 (ix2 n j) k)) = ix2 n k from Shape.idx_ext₂ rfl rfl,
    show idx_main_v10 (idx_main_v12 (idx_main_v35 (ix2 n j) k)) = ix2 k j from Shape.idx_ext₂ rfl rfl,
    show idx_main_v14 (idx_main_v16 (idx_main_v35 (ix2 n j) k)) = ix2 k j from Shape.idx_ext₂ rfl rfl,
    show idx_main_v18 (idx_main_v20 (idx_main_v35 (ix2 n j) k)) = ix2 k j from Shape.idx_ext₂ rfl rfl,
    show idx_main_v22 (idx_main_v24 (idx_main_v35 (ix2 n j) k)) = ix2 k j from Shape.idx_ext₂ rfl rfl]
  rfl

variable (x5 x6 x7 : (⟨S1x256, .f32⟩ : BufTy).Contents (Elt Ideal))

/-- The reference's first result is the layer's lower ends, over the weight and bias interval ends it computes. -/
theorem lower_result :
    val_main_v31 (F := Ideal) x0 x1 x2 x3 x4 x5 x6
      = lower x0 x1 (val_main_v4 (F := Ideal) x2 x3) (val_main_v5 (F := Ideal) x2 x4) (val_main_v6 (F := Ideal) x5 x6) := by
  funext i
  obtain ⟨n, j, rfl⟩ : ∃ (n : Fin 1024) (j : Fin 256), i = ix2 n j := ⟨i 0, i 1, eq_ix2 i⟩
  rw [lower_apply, val_main_v31_apply, val_main_v29_apply, val_main_v30_apply,
    show idx_main_v30 (ix2 n j) = ix2 0 j from Shape.idx_ext₂ rfl rfl,
    Finset.sum_congr rfl fun k _ => least_product x0 x1 x2 x3 x4 n j k]
  rfl

/-- The reference's second result is the layer's upper ends. -/
theorem upper_result :
    val_main_v37 (F := Ideal) x0 x1 x2 x3 x4 x5 x7
      = upper x0 x1 (val_main_v4 (F := Ideal) x2 x3) (val_main_v5 (F := Ideal) x2 x4) (val_main_v7 (F := Ideal) x5 x7) := by
  funext i
  obtain ⟨n, j, rfl⟩ : ∃ (n : Fin 1024) (j : Fin 256), i = ix2 n j := ⟨i 0, i 1, eq_ix2 i⟩
  rw [upper_apply, val_main_v37_apply, val_main_v35_apply, val_main_v36_apply,
    show idx_main_v36 (ix2 n j) = ix2 0 j from Shape.idx_ext₂ rfl rfl,
    Finset.sum_congr rfl fun k _ => greatest_product x0 x1 x2 x3 x4 n j k]
  rfl

end Cert.IntervalLayer.Reference

end
-- ==== Proof.KernelPieces.lean ====
/-
  What one grid point of the kernel leaves behind, as values.

  The kernel walks a grid of (row block, unit block, feature block). At a point it holds four input
  blocks: the input interval's lower and upper ends `xl`, `xr` (64 rows × 128 features) and the weight
  interval's lower and upper ends `wl`, `wr` (128 units × 128 features, i.e. stored transposed), and two
  accumulators of 64 rows × 128 units that live on from point to point.

  * At the FIRST feature block it zeroes both accumulators and then adds this block's contribution: the
    sum over the block's 128 features of the least (first accumulator) or greatest (second accumulator)
    of the four endpoint products. It writes no output.
  * At the LAST feature block it adds this block's contribution onto what the point before left in the
    accumulators, and writes each accumulator plus the bias row, broadcast down the 64 rows, to an output.

  Each statement below says that what the point leaves in a buffer is the corresponding pure expression of
  the blocks it read. The expressions are named terms of the body's arithmetic: `k0_pay4`, `k0_pay5` are
  the zero blocks; `k0_pay15 xl xr wl wr a` is `a` plus the feature sum of the least endpoint products;
  `k0_pay14 xl xr wl wr` is the block of greatest endpoint products and `k0_pay1 v a` is `a` plus the
  feature sum of `v`; `k0_pay2 a b` and `k0_pay3 a b` add the bias row `b` to every row of `a`.
-/
import proofs.«119556_j82231443849327_1_alg».proof.Proof.Gen.KernelIdeal.Frame
import Idealize.ShloMosaic.Lib.Pipeline.Value
import Idealize.ShloMosaic.Lib.Tactic

set_option maxRecDepth 16384

noncomputable section

namespace Cert.IntervalLayer.Kernel

open Cert.KernelIdeal Cert.KernelIdeal.Gen Idealize.ShloMosaic Idealize.ShloMosaic.TcCoe Idealize.ShloMosaic.Tactic
open Idealize.SL.Sem

variable {F : FTy → Type} [FloatOps F]
variable (c : Dev nD) (i : grid0.Coords) (arg3 : Memref sig .tc .vmem S64x128 .f32) (harg3 : arg3.IsWhole) (arg4 : Memref sig .tc .vmem S64x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole)

/-- Every load and store of the body starts at the origin of its buffer. -/
theorem origin : (![0, 0] : Fin 2 → Nat) = fun _ => 0 := funext fun a => by fin_cases a <;> rfl

section FirstFeatureBlock
variable (hc0 : cond0_0 i) (hc1 : ¬cond0_1 i)
variable (x0 x1 : Vec F S64x128 .f32) (x2 x3 : Vec F S128x128 .f32) (x4 x5 : Vec F S1x128 .f32)

/-- At the first feature block the first accumulator is left at the zero block plus the feature sum of the
    least endpoint products: the zeroing store is read back before the accumulating store covers it. -/
theorem first_block_low :
    sout0_A_0 c i arg3 harg3 arg4 harg4 arg5 harg5 arg6 harg6 arg7 harg7 arg8 harg8 arg9 harg9 arg10 harg10 arg11 harg11 arg12 harg12 hc0 hc1 x0 x1 x2 x3 x4 x5 = k0_pay15 x0 x1 x2 x3 (k0_pay4 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S64x128) origin]
  simp only [View.readAt_eq_ld, harg3.read_unread, harg4.read_unread, harg5.read_unread, harg6.read_unread,
    harg7.read_unread, harg8.read_unread, harg9.read_unread, harg10.read_unread, harg11.read_unread, harg12.read_unread,
    View.ld_unit_zero (S := S64x128) origin, View.ld_unit_zero (S := S128x128) origin, View.ld_unit_zero (S := S1x128) origin,
    View.readCov_unit_zero (S := S64x128) _ origin]

/-- At the first feature block the second accumulator is left at the zero block plus the feature sum of the
    greatest endpoint products. -/
theorem first_block_high :
    sout0_A_1 c i arg3 harg3 arg4 harg4 arg5 harg5 arg6 harg6 arg7 harg7 arg8 harg8 arg9 harg9 arg10 harg10 arg11 harg11 arg12 harg12 hc0 hc1 x0 x1 x2 x3 x4 x5 = k0_pay1 (k0_pay14 x0 x1 x2 x3) (k0_pay5 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S64x128) origin]
  simp only [View.readAt_eq_ld, harg3.read_unread, harg4.read_unread, harg5.read_unread, harg6.read_unread,
    harg7.read_unread, harg8.read_unread, harg9.read_unread, harg10.read_unread, harg11.read_unread, harg12.read_unread,
    View.ld_unit_zero (S := S64x128) origin, View.ld_unit_zero (S := S128x128) origin, View.ld_unit_zero (S := S1x128) origin,
    View.readCov_unit_zero (S := S64x128) _ origin]

end FirstFeatureBlock

section LastFeatureBlock
variable (hc0 : ¬cond0_0 i) (hc1 : cond0_1 i)
variable (x0 x1 : Vec F S64x128 .f32) (x2 x3 : Vec F S128x128 .f32) (x4 x5 : Vec F S1x128 .f32)
variable (xs0 xs1 : Vec F S64x128 .f32)

/-- At the last feature block the first output's block is the first accumulator — what the point before left,
    `xs0`, plus this block's feature sum of the least endpoint products — plus the bias row `x4`. -/
theorem last_block_low :
    out0_B_6 c i arg3 harg3 arg4 harg4 arg5 harg5 arg6 harg6 arg7 harg7 arg8 harg8 arg9 harg9 arg10 harg10 arg11 harg11 arg12 harg12 hc0 hc1 x0 x1 x2 x3 x4 x5 xs0 xs1 = k0_pay2 (k0_pay15 x0 x1 x2 x3 xs0) x4 := by
  unfold out0_B_6
  rw [View.read_writes_eq_canon _ _ _ (cover0_B_6 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_B
  dsimp only
  sl_unfold_words
  rw [View.canon_unit_zero origin]
  simp only [View.readAt_eq_ld, harg3.read_unread, harg4.read_unread, harg5.read_unread, harg6.read_unread,
    harg7.read_unread, harg8.read_unread, harg9.read_unread, harg10.read_unread, harg11.read_unread, harg12.read_unread,
    View.ld_unit_zero (S := S64x128) origin, View.ld_unit_zero (S := S128x128) origin, View.ld_unit_zero (S := S1x128) origin,
    View.readCov_unit_zero (S := S64x128) _ origin]

/-- At the last feature block the second output's block is the second accumulator — `xs1` plus this block's
    feature sum of the greatest endpoint products — plus the bias row `x5`. -/
theorem last_block_high :
    out0_B_7 c i arg3 harg3 arg4 harg4 arg5 harg5 arg6 harg6 arg7 harg7 arg8 harg8 arg9 harg9 arg10 harg10 arg11 harg11 arg12 harg12 hc0 hc1 x0 x1 x2 x3 x4 x5 xs0 xs1 = k0_pay3 (k0_pay1 (k0_pay14 x0 x1 x2 x3) xs1) x5 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_B
  dsimp only
  sl_unfold_words
  rw [View.canon_unit_zero origin]
  simp only [View.readAt_eq_ld, harg3.read_unread, harg4.read_unread, harg5.read_unread, harg6.read_unread,
    harg7.read_unread, harg8.read_unread, harg9.read_unread, harg10.read_unread, harg11.read_unread, harg12.read_unread,
    View.ld_unit_zero (S := S64x128) origin, View.ld_unit_zero (S := S128x128) origin, View.ld_unit_zero (S := S1x128) origin,
    View.readCov_unit_zero (S := S64x128) _ origin]

end LastFeatureBlock

end Cert.IntervalLayer.Kernel

end
-- ==== Proof.KernelArithmetic.lean ====
/-
  The body's arithmetic, read one entry at a time over the extended reals.

  A grid point works on a block of 64 rows, 128 units and 128 features. Position `(n, j, k)` of the
  three-axis arrays the body builds is: from the input interval's blocks (rows × features, spread along
  the units) the entry at `(n, k)`; from the weight interval's blocks (units × features, spread along the
  rows) the entry at `(j, k)`. Their four products, the least or greatest of them, and the sum of that along
  the features give, at `(n, j)`, exactly one feature block's share of the layer's lower or upper end. The
  bias row is spread down the rows: at `(n, j)` it is the row's entry `j`.
-/
import proofs.«119556_j82231443849327_1_alg».proof.Proof.Gen.KernelIdeal.Skeleton
import proofs.«119556_j82231443849327_1_alg».proof.Proof.IntervalSpec
import Idealize.ShloMosaic.Lib.Pipeline.Value
import Idealize.ShloMosaic.Lib.ValueIdx
import Idealize.ShloMosaic.Lib.ValueLayout
import Idealize.ShloMosaic.PureOps.Ideal.Laws

noncomputable section

namespace Cert.IntervalLayer.Kernel

open Cert.KernelIdeal Cert.KernelIdeal.Gen Idealize.ShloMosaic Idealize.ShloMosaic.ValueIdx Cert.IntervalLayer

/-! ## How the body spreads its blocks -/

section Spreading
variable {α : Type}

/-- A rows × features block given a unit axis of size one and spread along 128 units: position `(n, j, k)`
    holds the block's entry `(n, k)`. -/
theorem rows_spread (x : S64x128.Idx → α) (h1 : S64x128.ShapeCasts S64x1x128) (h2 : S64x1x128.Broadcasts S64x128x128)
    (n : Fin 64) (j k : Fin 128) :
    broadcastTo S64x128x128 (shapeCast S64x1x128 x h1) h2 (ix3 n j k) = x (ix2 n k) :=
  (broadcastTo_apply (shapeCast S64x1x128 x h1) h2 (ix3 n j k) (ix3 n (0 : Fin 1) k) fun a => match a with
    | ⟨0, _⟩ => by show n.val = if (64 : Nat) = 1 then 0 else n.val; rw [if_neg (by decide)]
    | ⟨1, _⟩ => by show 0 = if (1 : Nat) = 1 then 0 else j.val; rw [if_pos rfl]
    | ⟨2, _⟩ => by show k.val = if (128 : Nat) = 1 then 0 else k.val; rw [if_neg (by decide)]).trans
  (shapeCast_apply x h1 (ix3 n (0 : Fin 1) k) (ix2 n k) (by
    rw [Shape.rowMajor_val_two, Shape.rowMajor_val_three]
    show n.val * 128 + k.val = (n.val * 1 + 0) * 128 + k.val
    omega))

/-- A units × features block given a row axis of size one and spread along 64 rows: position `(n, j, k)`
    holds the block's entry `(j, k)`. -/
theorem units_spread (w : S128x128.Idx → α) (h0 : S128x128.ShapeCasts S128x128) (h1 : S128x128.ShapeCasts S1x128x128)
    (h2 : S1x128x128.Broadcasts S64x128x128) (n : Fin 64) (j k : Fin 128) :
    broadcastTo S64x128x128 (shapeCast S1x128x128 (shapeCast S128x128 w h0) h1) h2 (ix3 n j k) = w (ix2 j k) :=
  (broadcastTo_apply (shapeCast S1x128x128 (shapeCast S128x128 w h0) h1) h2 (ix3 n j k) (ix3 (0 : Fin 1) j k) fun a =>
    match a with
    | ⟨0, _⟩ => by show 0 = if (1 : Nat) = 1 then 0 else n.val; rw [if_pos rfl]
    | ⟨1, _⟩ => by show j.val = if (128 : Nat) = 1 then 0 else j.val; rw [if_neg (by decide)]
    | ⟨2, _⟩ => by show k.val = if (128 : Nat) = 1 then 0 else k.val; rw [if_neg (by decide)]).trans
  ((shapeCast_ab_1ab_apply (shapeCast S128x128 w h0) h1 (0 : Fin 1) j k).trans
    (congrFun (shapeCast_self w h0) (ix2 j k)))

/-- The bias row spread down 64 rows: position `(n, j)` holds the row's entry `j`. -/
theorem bias_spread (b : S1x128.Idx → α) (h0 : S1x128.ShapeCasts S1x128) (h : S1x128.Broadcasts S64x128)
    (n : Fin 64) (j : Fin 128) :
    broadcastTo S64x128 (shapeCast S1x128 b h0) h (ix2 n j) = b (ix2 (0 : Fin 1) j) :=
  (broadcastTo_1b_ab_apply (shapeCast S1x128 b h0) h n j).trans (congrFun (shapeCast_self b h0) (ix2 (0 : Fin 1) j))

end Spreading

/-! ## The sum along the features -/

/-- Summing a rows × units × features block along its features, from the zero pattern, gives at `(n, j)`
    the sum over the 128 features of the entries `(n, j, k)`. -/
theorem feature_sum (v : FVec Ideal S64x128x128 .f32) (h : S64x128x128.Reduces [2] S64x128) (hφ : FKind.Formats .f32)
    (hacc : (0x00000000#32 : BitVec 32) = 0x00000000#32) (n : Fin 64) (j : Fin 128) :
    multiReduction .add [2] S64x128 v 0x00000000#32 h hφ hacc (ix2 n j) = ∑ k : Fin 128, v (ix3 n j k) :=
  (Ideal.multiReduction_add_single v 0x00000000#32 h hφ hacc (ix2 n j)).trans
    (Finset.sum_congr rfl fun k _ => congrArg v (funext fun a => Fin.ext (by
      match a with | ⟨0, _⟩ => rfl | ⟨1, _⟩ => rfl | ⟨2, _⟩ => rfl)))

/-! ## The four endpoint products and their least and greatest -/

section Products
variable (xl xr : Vec Ideal S64x128 .f32) (wl wr : Vec Ideal S128x128 .f32) (n : Fin 64) (j k : Fin 128)

theorem product_low_low : k0_pay10 xl wl (ix3 n j k) = xl (ix2 n k) * wl (ix2 j k) :=
  congrArg₂ (· * ·) (rows_spread xl _ _ n j k) (units_spread wl _ _ _ n j k)
theorem product_low_high : k0_pay11 xl wr (ix3 n j k) = xl (ix2 n k) * wr (ix2 j k) :=
  congrArg₂ (· * ·) (rows_spread xl _ _ n j k) (units_spread wr _ _ _ n j k)
theorem product_high_low : k0_pay12 xr wl (ix3 n j k) = xr (ix2 n k) * wl (ix2 j k) :=
  congrArg₂ (· * ·) (rows_spread xr _ _ n j k) (units_spread wl _ _ _ n j k)
theorem product_high_high : k0_pay13 xr wr (ix3 n j k) = xr (ix2 n k) * wr (ix2 j k) :=
  congrArg₂ (· * ·) (rows_spread xr _ _ n j k) (units_spread wr _ _ _ n j k)

/-- The least of the four endpoint products at `(n, j, k)` is the lower end of the product of the input
    interval at `(n, k)` with the weight interval at `(j, k)`. -/
theorem least_at :
    minimumf (minimumf (k0_pay10 xl wl) (k0_pay11 xl wr)) (minimumf (k0_pay12 xr wl) (k0_pay13 xr wr)) (ix3 n j k)
      = lowEnd (xl (ix2 n k)) (xr (ix2 n k)) (wl (ix2 j k)) (wr (ix2 j k)) := by
  show min (min (k0_pay10 xl wl (ix3 n j k)) (k0_pay11 xl wr (ix3 n j k)))
      (min (k0_pay12 xr wl (ix3 n j k)) (k0_pay13 xr wr (ix3 n j k))) = _
  rw [product_low_low, product_low_high, product_high_low, product_high_high]
  rfl

/-- The greatest of the four endpoint products at `(n, j, k)` is the upper end of that interval product. -/
theorem greatest_at :
    k0_pay14 xl xr wl wr (ix3 n j k) = highEnd (xl (ix2 n k)) (xr (ix2 n k)) (wl (ix2 j k)) (wr (ix2 j k)) := by
  show max (max (k0_pay10 xl wl (ix3 n j k)) (k0_pay11 xl wr (ix3 n j k)))
      (max (k0_pay12 xr wl (ix3 n j k)) (k0_pay13 xr wr (ix3 n j k))) = _
  rw [product_low_low, product_low_high, product_high_low, product_high_high]
  rfl

end Products

/-! ## What the body stores, entry by entry -/

section Stored
variable (xl xr : Vec Ideal S64x128 .f32) (wl wr : Vec Ideal S128x128 .f32) (a : Vec Ideal S64x128 .f32)
variable (b : Vec Ideal S1x128 .f32) (n : Fin 64) (j : Fin 128)

/-- The zero blocks hold the zero pattern everywhere. -/
theorem zero_low_at : (k0_pay4 (F := Ideal)) (ix2 n j) = zeroWord := by
  unfold k0_pay4
  exact (congrFun (shapeCast_self _ _) (ix2 n j)).trans rfl
theorem zero_high_at : (k0_pay5 (F := Ideal)) (ix2 n j) = zeroWord := by
  unfold k0_pay5
  exact (congrFun (shapeCast_self _ _) (ix2 n j)).trans rfl

/-- The first accumulator's new contents at `(n, j)`: the old entry plus this feature block's sum of lower ends. -/
theorem low_step_at :
    k0_pay15 xl xr wl wr a (ix2 n j)
      = a (ix2 n j) + ∑ k : Fin 128, lowEnd (xl (ix2 n k)) (xr (ix2 n k)) (wl (ix2 j k)) (wr (ix2 j k)) := by
  unfold k0_pay15
  refine (congrFun (shapeCast_self _ _) (ix2 n j)).trans ?_
  exact congrArg (a (ix2 n j) + ·)
    ((feature_sum _ _ _ _ n j).trans (Finset.sum_congr rfl fun k _ => least_at xl xr wl wr n j k))

/-- The second accumulator's new contents at `(n, j)`: the old entry plus this feature block's sum of upper ends. -/
theorem high_step_at :
    k0_pay1 (k0_pay14 xl xr wl wr) a (ix2 n j)
      = a (ix2 n j) + ∑ k : Fin 128, highEnd (xl (ix2 n k)) (xr (ix2 n k)) (wl (ix2 j k)) (wr (ix2 j k)) := by
  unfold k0_pay1
  refine (congrFun (shapeCast_self _ _) (ix2 n j)).trans ?_
  exact congrArg (a (ix2 n j) + ·)
    ((feature_sum _ _ _ _ n j).trans (Finset.sum_congr rfl fun k _ => greatest_at xl xr wl wr n j k))

/-- An output block's entry `(n, j)`: the accumulator's entry plus the bias row's entry `j`. -/
theorem low_out_at : k0_pay2 a b (ix2 n j) = a (ix2 n j) + b (ix2 (0 : Fin 1) j) :=
  congrArg (a (ix2 n j) + ·) (bias_spread b _ _ n j)
theorem high_out_at : k0_pay3 a b (ix2 n j) = a (ix2 n j) + b (ix2 (0 : Fin 1) j) :=
  congrArg (a (ix2 n j) + ·) (bias_spread b _ _ n j)

end Stored

end Cert.IntervalLayer.Kernel

end
-- ==== Proof.KernelBlocks.lean ====
/-
  Where each block sits in its array.

  The grid has 16 row blocks, 2 unit blocks and 2 feature blocks, numbered with the feature block changing
  fastest: point `t` is row block `t / 4`, unit block `t / 2 % 2`, feature block `t % 2`. At point `t`

  * the input interval's blocks (64 rows × 128 features) sit at row block `t / 4`, feature block `t % 2`;
  * the weight interval's blocks, stored units × features (128 × 128), sit at unit block `t / 2 % 2`,
    feature block `t % 2`;
  * the bias rows' blocks (1 × 128 units) sit at unit block `t / 2 % 2`;
  * the output blocks (64 rows × 128 units) sit at row block `t / 4`, unit block `t / 2 % 2`.

  An entry of a block is the array's entry at block index × block size + the entry's own coordinate, on
  each axis.
-/
import proofs.«119556_j82231443849327_1_alg».proof.Proof.Gen.KernelIdeal.Value
import Idealize.ShloMosaic.Lib.ValueIdx

noncomputable section

namespace Cert.IntervalLayer.Kernel

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- Every window's block index at every point of the grid, on both axes. -/
theorem positions : ∀ t : Fin cfg0.N,
    win0_0.index t (0 : Fin 2) = t.val / 4 ∧ win0_0.index t (1 : Fin 2) = t.val % 2
    ∧ win0_1.index t (0 : Fin 2) = t.val / 4 ∧ win0_1.index t (1 : Fin 2) = t.val % 2
    ∧ win0_2.index t (0 : Fin 2) = t.val / 2 % 2 ∧ win0_2.index t (1 : Fin 2) = t.val % 2
    ∧ win0_3.index t (0 : Fin 2) = t.val / 2 % 2 ∧ win0_3.index t (1 : Fin 2) = t.val % 2
    ∧ win0_4.index t (0 : Fin 2) = 0 ∧ win0_4.index t (1 : Fin 2) = t.val / 2 % 2
    ∧ win0_5.index t (0 : Fin 2) = 0 ∧ win0_5.index t (1 : Fin 2) = t.val / 2 % 2
    ∧ win0_6.index t (0 : Fin 2) = t.val / 4 ∧ win0_6.index t (1 : Fin 2) = t.val / 2 % 2
    ∧ win0_7.index t (0 : Fin 2) = t.val / 4 ∧ win0_7.index t (1 : Fin 2) = t.val / 2 % 2 :=
  (by decide +kernel : ∀ t : Fin grid0.N, _)

/-! ## The arrays the kernel's windows range over, and their blocks at a point -/

/-- The input interval's lower and upper ends, rows × features. -/
abbrev rowsLow (c : Dev nD) : FVec Ideal S1024x256 .f32 := V m c main_arg0
abbrev rowsHigh (c : Dev nD) : FVec Ideal S1024x256 .f32 := V m c main_arg1
/-- The weight interval's lower and upper ends as the kernel is handed them: units × features. -/
abbrev unitsLow (c : Dev nD) : FVec Ideal S256x256 .f32 := V m c main_v8
abbrev unitsHigh (c : Dev nD) : FVec Ideal S256x256 .f32 := V m c main_v9
/-- The bias interval's lower and upper ends, one row of units. -/
abbrev biasLow (c : Dev nD) : FVec Ideal S1x256 .f32 := V m c main_v6
abbrev biasHigh (c : Dev nD) : FVec Ideal S1x256 .f32 := V m c main_v7

abbrev blkRowsLow (c : Dev nD) (t : Fin cfg0.N) : Vec Ideal S64x128 .f32 := iblk m c 0 t
abbrev blkRowsHigh (c : Dev nD) (t : Fin cfg0.N) : Vec Ideal S64x128 .f32 := iblk m c 1 t
abbrev blkUnitsLow (c : Dev nD) (t : Fin cfg0.N) : Vec Ideal S128x128 .f32 := iblk m c 2 t
abbrev blkUnitsHigh (c : Dev nD) (t : Fin cfg0.N) : Vec Ideal S128x128 .f32 := iblk m c 3 t
abbrev blkBiasLow (c : Dev nD) (t : Fin cfg0.N) : Vec Ideal S1x128 .f32 := iblk m c 4 t
abbrev blkBiasHigh (c : Dev nD) (t : Fin cfg0.N) : Vec Ideal S1x128 .f32 := iblk m c 5 t

/-! ## A block's entry is its array's entry -/

/-- Entry `(p, q)` of the lower input block at point `t` is the array's entry at row `t / 4 · 64 + p`, feature `t % 2 · 128 + q`. -/
theorem rows_low_block (c : Dev nD) (t : Fin cfg0.N) (p : Fin 64) (q : Fin 128) (P : Fin 1024) (Q : Fin 256)
    (hP : P.val = t.val / 4 * 64 + p.val) (hQ : Q.val = t.val % 2 * 128 + q.val) :
    blkRowsLow m c t (ix2 p q) = rowsLow m c (ix2 P Q) := by
  have e := positions t
  show V m c main_arg0 (((cfg0.win 0).blk t).view.emb (ix2 p q)) = V m c main_arg0 (ix2 P Q)
  refine congrArg (V m c main_arg0) (funext fun a => Fin.ext ?_)
  match a with
  | ⟨0, _⟩ => show win0_0.index t (0 : Fin 2) * 64 + 1 * p.val = P.val; omega
  | ⟨1, _⟩ => show win0_0.index t (1 : Fin 2) * 128 + 1 * q.val = Q.val; omega

/-- Likewise for the upper input block. -/
theorem rows_high_block (c : Dev nD) (t : Fin cfg0.N) (p : Fin 64) (q : Fin 128) (P : Fin 1024) (Q : Fin 256)
    (hP : P.val = t.val / 4 * 64 + p.val) (hQ : Q.val = t.val % 2 * 128 + q.val) :
    blkRowsHigh m c t (ix2 p q) = rowsHigh m c (ix2 P Q) := by
  have e := positions t
  show V m c main_arg1 (((cfg0.win 1).blk t).view.emb (ix2 p q)) = V m c main_arg1 (ix2 P Q)
  refine congrArg (V m c main_arg1) (funext fun a => Fin.ext ?_)
  match a with
  | ⟨0, _⟩ => show win0_1.index t (0 : Fin 2) * 64 + 1 * p.val = P.val; omega
  | ⟨1, _⟩ => show win0_1.index t (1 : Fin 2) * 128 + 1 * q.val = Q.val; omega

/-- Entry `(p, q)` of the lower weight block at point `t` is the units × features array's entry at unit `t / 2 % 2 · 128 + p`, feature `t % 2 · 128 + q`. -/
theorem units_low_block (c : Dev nD) (t : Fin cfg0.N) (p : Fin 128) (q : Fin 128) (P : Fin 256) (Q : Fin 256)
    (hP : P.val = (t.val / 2 % 2) * 128 + p.val) (hQ : Q.val = t.val % 2 * 128 + q.val) :
    blkUnitsLow m c t (ix2 p q) = unitsLow m c (ix2 P Q) := by
  have e := positions t
  show V m c main_v8 (((cfg0.win 2).blk t).view.emb (ix2 p q)) = V m c main_v8 (ix2 P Q)
  refine congrArg (V m c main_v8) (funext fun a => Fin.ext ?_)
  match a with
  | ⟨0, _⟩ => show win0_2.index t (0 : Fin 2) * 128 + 1 * p.val = P.val; omega
  | ⟨1, _⟩ => show win0_2.index t (1 : Fin 2) * 128 + 1 * q.val = Q.val; omega

/-- Likewise for the upper weight block. -/
theorem units_high_block (c : Dev nD) (t : Fin cfg0.N) (p : Fin 128) (q : Fin 128) (P : Fin 256) (Q : Fin 256)
    (hP : P.val = (t.val / 2 % 2) * 128 + p.val) (hQ : Q.val = t.val % 2 * 128 + q.val) :
    blkUnitsHigh m c t (ix2 p q) = unitsHigh m c (ix2 P Q) := by
  have e := positions t
  show V m c main_v9 (((cfg0.win 3).blk t).view.emb (ix2 p q)) = V m c main_v9 (ix2 P Q)
  refine congrArg (V m c main_v9) (funext fun a => Fin.ext ?_)
  match a with
  | ⟨0, _⟩ => show win0_3.index t (0 : Fin 2) * 128 + 1 * p.val = P.val; omega
  | ⟨1, _⟩ => show win0_3.index t (1 : Fin 2) * 128 + 1 * q.val = Q.val; omega

/-- Entry `q` of the lower bias block at point `t` is the bias row's entry at unit `t / 2 % 2 · 128 + q`. -/
theorem bias_low_block (c : Dev nD) (t : Fin cfg0.N) (q : Fin 128) (Q : Fin 256) (hQ : Q.val = (t.val / 2 % 2) * 128 + q.val) :
    blkBiasLow m c t (ix2 (0 : Fin 1) q) = biasLow m c (ix2 (0 : Fin 1) Q) := by
  have e := positions t
  show V m c main_v6 (((cfg0.win 4).blk t).view.emb (ix2 (0 : Fin 1) q)) = V m c main_v6 (ix2 (0 : Fin 1) Q)
  refine congrArg (V m c main_v6) (funext fun a => Fin.ext ?_)
  match a with
  | ⟨0, _⟩ => show win0_4.index t (0 : Fin 2) * 1 + 1 * 0 = 0; omega
  | ⟨1, _⟩ => show win0_4.index t (1 : Fin 2) * 128 + 1 * q.val = Q.val; omega

/-- Likewise for the upper bias block. -/
theorem bias_high_block (c : Dev nD) (t : Fin cfg0.N) (q : Fin 128) (Q : Fin 256) (hQ : Q.val = (t.val / 2 % 2) * 128 + q.val) :
    blkBiasHigh m c t (ix2 (0 : Fin 1) q) = biasHigh m c (ix2 (0 : Fin 1) Q) := by
  have e := positions t
  show V m c main_v7 (((cfg0.win 5).blk t).view.emb (ix2 (0 : Fin 1) q)) = V m c main_v7 (ix2 (0 : Fin 1) Q)
  refine congrArg (V m c main_v7) (funext fun a => Fin.ext ?_)
  match a with
  | ⟨0, _⟩ => show win0_5.index t (0 : Fin 2) * 1 + 1 * 0 = 0; omega
  | ⟨1, _⟩ => show win0_5.index t (1 : Fin 2) * 128 + 1 * q.val = Q.val; omega

end Cert.IntervalLayer.Kernel

end
-- ==== Proof.KernelHost.lean ====
/-
  The weight and bias intervals, as the region finds them.

  Before the kernel runs, the program computes from the arguments the interval ends the layer works with:
  a spread parameter is clipped below at the zero pattern (the greater of it and zero), the lower end is
  the centre less the clipped lower spread, the upper end the centre plus the clipped upper spread. The
  two weight arrays are then transposed, so that the kernel is handed them units × features; the bias rows
  are handed over as they are. Reading a transposed array at `(unit, feature)` is reading the array itself at
  `(feature, unit)`.
-/
import proofs.«119556_j82231443849327_1_alg».proof.Proof.KernelBlocks
import Idealize.ShloMosaic.Lib.StableHlo.Run
import Idealize.ShloMosaic.Lib.ValueLayout

noncomputable section

namespace Cert.IntervalLayer.Kernel

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- A spread parameter clipped below at the zero pattern, for a weight array and for a bias row. -/
abbrev clipWeights (s : FVec Ideal S256x256 .f32) : FVec Ideal S256x256 .f32 :=
  maximumf s (broadcastInDim S256x256 ![] bcast_S_S256x256 (constant (F := Ideal) S_ .f32 0x00000000#32))
abbrev clipBias (s : FVec Ideal S1x256 .f32) : FVec Ideal S1x256 .f32 :=
  maximumf s (broadcastInDim S1x256 ![] bcast_S_S1x256 (constant (F := Ideal) S_ .f32 0x00000000#32))

/-- The weight interval's lower and upper ends, features × units, and the bias interval's, from the arguments. -/
abbrev weightsLow (c : Dev nD) : FVec Ideal S256x256 .f32 :=
  subf (m ((c : Thread nD τ).loc main_arg2)) (clipWeights (m ((c : Thread nD τ).loc main_arg3)))
abbrev weightsHigh (c : Dev nD) : FVec Ideal S256x256 .f32 :=
  addf (m ((c : Thread nD τ).loc main_arg2)) (clipWeights (m ((c : Thread nD τ).loc main_arg4)))
abbrev biasesLow (c : Dev nD) : FVec Ideal S1x256 .f32 :=
  subf (m ((c : Thread nD τ).loc main_arg5)) (clipBias (m ((c : Thread nD τ).loc main_arg6)))
abbrev biasesHigh (c : Dev nD) : FVec Ideal S1x256 .f32 :=
  addf (m ((c : Thread nD τ).loc main_arg5)) (clipBias (m ((c : Thread nD τ).loc main_arg7)))

/-- The kernel is handed the lower weight ends transposed. -/
theorem units_low_eq (c : Dev nD) :
    unitsLow m c = transpose S256x256 [1, 0] (weightsLow m c) transposes_S256x256_S256x256_1_0 := by
  show (V m c main_v8 : S256x256.Idx → EReal) = _
  dsimp only [V]
  simp only [hostOps0, hostOps0_1, hostOps0_2, hostOps0_3, hostOps0_4, List.flatten_cons, List.flatten_nil, List.append_nil,
    List.cons_append, List.nil_append]
  after_results
  rfl

/-- The kernel is handed the upper weight ends transposed. -/
theorem units_high_eq (c : Dev nD) :
    unitsHigh m c = transpose S256x256 [1, 0] (weightsHigh m c) transposes_S256x256_S256x256_1_0 := by
  show (V m c main_v9 : S256x256.Idx → EReal) = _
  dsimp only [V]
  simp only [hostOps0, hostOps0_1, hostOps0_2, hostOps0_3, hostOps0_4, List.flatten_cons, List.flatten_nil, List.append_nil,
    List.cons_append, List.nil_append]
  after_results
  rfl

/-- The kernel is handed the bias ends as they are. -/
theorem bias_low_eq (c : Dev nD) : biasLow m c = biasesLow m c := by
  show (V m c main_v6 : S1x256.Idx → EReal) = _
  dsimp only [V]
  simp only [hostOps0, hostOps0_1, hostOps0_2, hostOps0_3, hostOps0_4, List.flatten_cons, List.flatten_nil, List.append_nil,
    List.cons_append, List.nil_append]
  after_results
  rfl

theorem bias_high_eq (c : Dev nD) : biasHigh m c = biasesHigh m c := by
  show (V m c main_v7 : S1x256.Idx → EReal) = _
  dsimp only [V]
  simp only [hostOps0, hostOps0_1, hostOps0_2, hostOps0_3, hostOps0_4, List.flatten_cons, List.flatten_nil, List.append_nil,
    List.cons_append, List.nil_append]
  after_results
  rfl

/-- The input interval's arrays reach the kernel as launched. -/
theorem rows_low_eq (c : Dev nD) : rowsLow m c = m ((c : Thread nD τ).loc main_arg0) := V_main_arg0 m c
theorem rows_high_eq (c : Dev nD) : rowsHigh m c = m ((c : Thread nD τ).loc main_arg1) := V_main_arg1 m c

/-- The units × features arrays read at `(unit, feature)` are the weight ends at `(feature, unit)`. -/
theorem units_low_at (c : Dev nD) (J K : Fin 256) : unitsLow m c (ix2 J K) = weightsLow m c (ix2 K J) :=
  (congrFun (units_low_eq m c) (ix2 J K)).trans (transpose_ix2_apply (weightsLow m c) _ J K)
theorem units_high_at (c : Dev nD) (J K : Fin 256) : unitsHigh m c (ix2 J K) = weightsHigh m c (ix2 K J) :=
  (congrFun (units_high_eq m c) (ix2 J K)).trans (transpose_ix2_apply (weightsHigh m c) _ J K)

end Cert.IntervalLayer.Kernel

end
-- ==== Proof.KernelValue.lean ====
/-
  What the kernel's two result arrays hold after its run.

  An output block is written at the last feature block only, so every block of the result arrays is
  written exactly once, by the odd-numbered point of its (row block, unit block). What that point writes
  is: the accumulator as the point before left it — zero plus the first feature block's sums — plus the
  second feature block's sums, plus the bias. Entry by entry that is the zero pattern plus the sum over
  features 0–127, plus the sum over features 128–255, plus the bias: the layer's value with its sum over
  256 features taken in two halves. The odd-numbered points' blocks tile the arrays, so the arrays end
  holding the layer's lower and upper ends everywhere.
-/
import proofs.«119556_j82231443849327_1_alg».proof.Proof.KernelPieces
import proofs.«119556_j82231443849327_1_alg».proof.Proof.KernelArithmetic
import proofs.«119556_j82231443849327_1_alg».proof.Proof.KernelHost

noncomputable section

namespace Cert.IntervalLayer.Kernel

open Cert.KernelIdeal Cert.KernelIdeal.Gen Idealize.ShloMosaic Idealize.ShloMosaic.TcCoe Idealize.ShloMosaic.ValueIdx
open Idealize.SL.Sem Cert.IntervalLayer
open Idealize.ShloMosaic.Pipeline (Dat)

variable (m : (ℓ : Loc nD τ sig) → Buf (Elt Ideal) ℓ) (ρ : Dev nD → PrngReg)

/-- The point before `t`. -/
abbrev before (t : Fin cfg0.N) : Fin cfg0.N := ⟨t.val - 1, Nat.lt_of_le_of_lt (Nat.sub_le _ _) t.isLt⟩

/-! ## The accumulators after a first feature block -/

/-- After an even-numbered point the first accumulator holds zero plus that point's sums of lower ends. -/
theorem carried_low (c : Dev nD) (p : Fin cfg0.N) (hp : p.val % 2 = 0) :
    (outsAt0 m c p.val p.isLt).2.2.1 = k0_pay15 (blkRowsLow m c p) (blkRowsHigh m c p) (blkUnitsLow m c p) (blkUnitsHigh m c p) (k0_pay4 (F := Ideal)) := by
  have h1 : ¬p.val % 2 = 1 := by omega
  rw [outsAt0_A m c p hp h1]
  dsimp only
  exact first_block_low (F := Ideal) c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) scM0_0 (Memref.isWhole_whole _) scM0_1 (Memref.isWhole_whole _)
    ((hcond0_0 p).mpr hp) (fun h => h1 ((hcond0_1 p).mp h)) (iblk m c 0 p) (iblk m c 1 p) (iblk m c 2 p) (iblk m c 3 p) (iblk m c 4 p) (iblk m c 5 p)

/-- After an even-numbered point the second accumulator holds zero plus that point's sums of upper ends. -/
theorem carried_high (c : Dev nD) (p : Fin cfg0.N) (hp : p.val % 2 = 0) :
    (outsAt0 m c p.val p.isLt).2.2.2 = k0_pay1 (k0_pay14 (blkRowsLow m c p) (blkRowsHigh m c p) (blkUnitsLow m c p) (blkUnitsHigh m c p)) (k0_pay5 (F := Ideal)) := by
  have h1 : ¬p.val % 2 = 1 := by omega
  rw [outsAt0_A m c p hp h1]
  dsimp only
  exact first_block_high (F := Ideal) c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) scM0_0 (Memref.isWhole_whole _) scM0_1 (Memref.isWhole_whole _)
    ((hcond0_0 p).mpr hp) (fun h => h1 ((hcond0_1 p).mp h)) (iblk m c 0 p) (iblk m c 1 p) (iblk m c 2 p) (iblk m c 3 p) (iblk m c 4 p) (iblk m c 5 p)

/-! ## What an odd-numbered point writes back -/

/-- The lower output block an odd-numbered point writes back. -/
theorem flushed_low (c : Dev nD) (t : Fin cfg0.N) (ht : t.val % 2 = 1) :
    (dats m 0 c).flushed 6 t = (cfg0.win 6).cut (grid0.coords t)
      (k0_pay2 (k0_pay15 (blkRowsLow m c t) (blkRowsHigh m c t) (blkUnitsLow m c t) (blkUnitsHigh m c t) (k0_pay15 (blkRowsLow m c (before t)) (blkRowsHigh m c (before t)) (blkUnitsLow m c (before t)) (blkUnitsHigh m c (before t)) (k0_pay4 (F := Ideal)))) (blkBiasLow m c t)) := by
  have h0 : ¬t.val % 2 = 0 := by omega
  have hb : (before t).val % 2 = 0 := by show (t.val - 1) % 2 = 0; omega
  rw [Value.flushed6_B m c t h0 ht]
  refine congrArg ((cfg0.win 6).cut (grid0.coords t)) ?_
  refine (last_block_low (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    (fun h => h0 ((hcond0_0 t).mp h)) ((hcond0_1 t).mpr ht) (iblk m c 0 t) (iblk m c 1 t) (iblk m c 2 t) (iblk m c 3 t) (iblk m c 4 t) (iblk m c 5 t)
    (outsAt0 m c (t.val - 1) (Nat.lt_of_le_of_lt (Nat.sub_le _ _) t.isLt)).2.2.1
    (outsAt0 m c (t.val - 1) (Nat.lt_of_le_of_lt (Nat.sub_le _ _) t.isLt)).2.2.2).trans ?_
  exact congrArg (fun a => k0_pay2 (k0_pay15 (blkRowsLow m c t) (blkRowsHigh m c t) (blkUnitsLow m c t) (blkUnitsHigh m c t) a) (blkBiasLow m c t)) (carried_low m c (before t) hb)

/-- The upper output block an odd-numbered point writes back. -/
theorem flushed_high (c : Dev nD) (t : Fin cfg0.N) (ht : t.val % 2 = 1) :
    (dats m 0 c).flushed 7 t = (cfg0.win 7).cut (grid0.coords t)
      (k0_pay3 (k0_pay1 (k0_pay14 (blkRowsLow m c t) (blkRowsHigh m c t) (blkUnitsLow m c t) (blkUnitsHigh m c t)) (k0_pay1 (k0_pay14 (blkRowsLow m c (before t)) (blkRowsHigh m c (before t)) (blkUnitsLow m c (before t)) (blkUnitsHigh m c (before t))) (k0_pay5 (F := Ideal)))) (blkBiasHigh m c t)) := by
  have h0 : ¬t.val % 2 = 0 := by omega
  have hb : (before t).val % 2 = 0 := by show (t.val - 1) % 2 = 0; omega
  rw [Value.flushed7_B m c t h0 ht]
  refine congrArg ((cfg0.win 7).cut (grid0.coords t)) ?_
  refine (last_block_high (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    (fun h => h0 ((hcond0_0 t).mp h)) ((hcond0_1 t).mpr ht) (iblk m c 0 t) (iblk m c 1 t) (iblk m c 2 t) (iblk m c 3 t) (iblk m c 4 t) (iblk m c 5 t)
    (outsAt0 m c (t.val - 1) (Nat.lt_of_le_of_lt (Nat.sub_le _ _) t.isLt)).2.2.1
    (outsAt0 m c (t.val - 1) (Nat.lt_of_le_of_lt (Nat.sub_le _ _) t.isLt)).2.2.2).trans ?_
  exact congrArg (fun a => k0_pay3 (k0_pay1 (k0_pay14 (blkRowsLow m c t) (blkRowsHigh m c t) (blkUnitsLow m c t) (blkUnitsHigh m c t)) a) (blkBiasHigh m c t)) (carried_high m c (before t) hb)

/-! ## One entry of an output block is the layer's value -/

/-- The layer's two results over the arrays as launched and the interval ends the program computes. -/
abbrev lowerK (c : Dev nD) : FVec Ideal S1024x256 .f32 :=
  lower (m ((c : Thread nD τ).loc main_arg0)) (m ((c : Thread nD τ).loc main_arg1)) (weightsLow m c) (weightsHigh m c) (biasesLow m c)
abbrev upperK (c : Dev nD) : FVec Ideal S1024x256 .f32 :=
  upper (m ((c : Thread nD τ).loc main_arg0)) (m ((c : Thread nD τ).loc main_arg1)) (weightsLow m c) (weightsHigh m c) (biasesHigh m c)

section Entry
variable (c : Dev nD) (s : Fin cfg0.N) (n : Fin 64) (j k : Fin 128) (N : Fin 1024) (J K : Fin 256)

/-- The lower end of one interval product, read from point `s`'s blocks, is that of the arrays' entries at
    row `N`, feature `K` and unit `J`. -/
theorem low_term (hN : N.val = s.val / 4 * 64 + n.val) (hJ : J.val = (s.val / 2 % 2) * 128 + j.val)
    (hK : K.val = s.val % 2 * 128 + k.val) :
    lowEnd (blkRowsLow m c s (ix2 n k)) (blkRowsHigh m c s (ix2 n k)) (blkUnitsLow m c s (ix2 j k)) (blkUnitsHigh m c s (ix2 j k))
      = lowEnd (m ((c : Thread nD τ).loc main_arg0) (ix2 N K)) (m ((c : Thread nD τ).loc main_arg1) (ix2 N K))
          (weightsLow m c (ix2 K J)) (weightsHigh m c (ix2 K J)) := by
  rw [rows_low_block m c s n k N K hN hK, rows_high_block m c s n k N K hN hK, units_low_block m c s j k J K hJ hK,
    units_high_block m c s j k J K hJ hK, units_low_at, units_high_at, rows_low_eq, rows_high_eq]

theorem high_term (hN : N.val = s.val / 4 * 64 + n.val) (hJ : J.val = (s.val / 2 % 2) * 128 + j.val)
    (hK : K.val = s.val % 2 * 128 + k.val) :
    highEnd (blkRowsLow m c s (ix2 n k)) (blkRowsHigh m c s (ix2 n k)) (blkUnitsLow m c s (ix2 j k)) (blkUnitsHigh m c s (ix2 j k))
      = highEnd (m ((c : Thread nD τ).loc main_arg0) (ix2 N K)) (m ((c : Thread nD τ).loc main_arg1) (ix2 N K))
          (weightsLow m c (ix2 K J)) (weightsHigh m c (ix2 K J)) := by
  rw [rows_low_block m c s n k N K hN hK, rows_high_block m c s n k N K hN hK, units_low_block m c s j k J K hJ hK,
    units_high_block m c s j k J K hJ hK, units_low_at, units_high_at, rows_low_eq, rows_high_eq]

end Entry

/-- Entry `(n, j)` of the lower block an odd-numbered point `t` writes is the layer's lower end at row
    `t / 4 · 64 + n` and unit `t / 2 % 2 · 128 + j`: the two halves of the feature sum, joined. -/
theorem low_entry (c : Dev nD) (t : Fin cfg0.N) (ht : t.val % 2 = 1) (n : Fin 64) (j : Fin 128) (N : Fin 1024) (J : Fin 256)
    (hN : N.val = t.val / 4 * 64 + n.val) (hJ : J.val = (t.val / 2 % 2) * 128 + j.val) :
    k0_pay2 (k0_pay15 (blkRowsLow m c t) (blkRowsHigh m c t) (blkUnitsLow m c t) (blkUnitsHigh m c t) (k0_pay15 (blkRowsLow m c (before t)) (blkRowsHigh m c (before t)) (blkUnitsLow m c (before t)) (blkUnitsHigh m c (before t)) (k0_pay4 (F := Ideal)))) (blkBiasLow m c t) (ix2 n j)
      = lowerAt (m ((c : Thread nD τ).loc main_arg0)) (m ((c : Thread nD τ).loc main_arg1)) (weightsLow m c) (weightsHigh m c)
          (biasesLow m c) N J := by
  have hbN : N.val = (before t).val / 4 * 64 + n.val := by show N.val = (t.val - 1) / 4 * 64 + n.val; omega
  have hbJ : J.val = ((before t).val / 2 % 2) * 128 + j.val := by show J.val = ((t.val - 1) / 2 % 2) * 128 + j.val; omega
  rw [low_out_at, low_step_at, low_step_at, zero_low_at, bias_low_block m c t j J hJ, bias_low_eq,
    Finset.sum_congr rfl fun k _ => low_term m c (before t) n j k N J (firstHalf k) hbN hbJ
      (by show k.val = (t.val - 1) % 2 * 128 + k.val; omega),
    Finset.sum_congr rfl fun k _ => low_term m c t n j k N J (secondHalf k) hN hJ
      (by show 128 + k.val = t.val % 2 * 128 + k.val; omega)]
  exact congrArg (· + biasesLow m c (ix2 (0 : Fin 1) J))
    (blockwise_sum zeroWord fun K => lowEnd (m ((c : Thread nD τ).loc main_arg0) (ix2 N K))
      (m ((c : Thread nD τ).loc main_arg1) (ix2 N K)) (weightsLow m c (ix2 K J)) (weightsHigh m c (ix2 K J)))

/-- Likewise for the upper block. -/
theorem high_entry (c : Dev nD) (t : Fin cfg0.N) (ht : t.val % 2 = 1) (n : Fin 64) (j : Fin 128) (N : Fin 1024) (J : Fin 256)
    (hN : N.val = t.val / 4 * 64 + n.val) (hJ : J.val = (t.val / 2 % 2) * 128 + j.val) :
    k0_pay3 (k0_pay1 (k0_pay14 (blkRowsLow m c t) (blkRowsHigh m c t) (blkUnitsLow m c t) (blkUnitsHigh m c t)) (k0_pay1 (k0_pay14 (blkRowsLow m c (before t)) (blkRowsHigh m c (before t)) (blkUnitsLow m c (before t)) (blkUnitsHigh m c (before t))) (k0_pay5 (F := Ideal)))) (blkBiasHigh m c t) (ix2 n j)
      = upperAt (m ((c : Thread nD τ).loc main_arg0)) (m ((c : Thread nD τ).loc main_arg1)) (weightsLow m c) (weightsHigh m c)
          (biasesHigh m c) N J := by
  have hbN : N.val = (before t).val / 4 * 64 + n.val := by show N.val = (t.val - 1) / 4 * 64 + n.val; omega
  have hbJ : J.val = ((before t).val / 2 % 2) * 128 + j.val := by show J.val = ((t.val - 1) / 2 % 2) * 128 + j.val; omega
  rw [high_out_at, high_step_at, high_step_at, zero_high_at, bias_high_block m c t j J hJ, bias_high_eq,
    Finset.sum_congr rfl fun k _ => high_term m c (before t) n j k N J (firstHalf k) hbN hbJ
      (by show k.val = (t.val - 1) % 2 * 128 + k.val; omega),
    Finset.sum_congr rfl fun k _ => high_term m c t n j k N J (secondHalf k) hN hJ
      (by show 128 + k.val = t.val % 2 * 128 + k.val; omega)]
  exact congrArg (· + biasesHigh m c (ix2 (0 : Fin 1) J))
    (blockwise_sum zeroWord fun K => highEnd (m ((c : Thread nD τ).loc main_arg0) (ix2 N K))
      (m ((c : Thread nD τ).loc main_arg1) (ix2 N K)) (weightsLow m c (ix2 K J)) (weightsHigh m c (ix2 K J)))

end Cert.IntervalLayer.Kernel

end
-- ==== Proof.KernelArrays.lean ====
/-
  The kernel's result arrays after its run.

  The odd-numbered point of row block `a` and unit block `b` is point `4a + 2b + 1`, and it writes back the
  output block of rows `64a … 64a + 63`, units `128b … 128b + 127`: each entry the layer's value at its own
  row and unit. Every position of a result array lies in exactly such a block, so after the run the first
  result array holds the layer's lower ends and the second its upper ends, everywhere.
-/
import proofs.«119556_j82231443849327_1_alg».proof.Proof.KernelValue

noncomputable section

namespace Cert.IntervalLayer.Kernel

open Cert.KernelIdeal Cert.KernelIdeal.Gen Idealize.ShloMosaic Idealize.ShloMosaic.TcCoe Idealize.ShloMosaic.ValueIdx
open Idealize.SL.Sem Cert.IntervalLayer
open Idealize.ShloMosaic.Pipeline (Dat)

variable (m : (ℓ : Loc nD τ sig) → Buf (Elt Ideal) ℓ) (ρ : Dev nD → PrngReg)

/-! ## A written-back block is a block of the layer's result -/

theorem flushed_low_eq (c : Dev nD) (t : Fin cfg0.N) (hf : (cfg0.win 6).flush t = true) :
    (dats m 0 c).flushed 6 t = ((cfg0.win 6).blk t).view.read (Elt Ideal) (lowerK m c) := by
  have ht : t.val % 2 = 1 := (flush0_6 t).mp hf
  have e := positions t
  have hlt : t.val < 64 := lt_of_lt_of_eq t.isLt N_0
  rw [flushed_low m c t ht]
  funext y
  obtain ⟨n, j, rfl⟩ : ∃ (n : Fin 64) (j : Fin 128), y = ix2 n j := ⟨y 0, y 1, eq_ix2 y⟩
  have hN : t.val / 4 * 64 + n.val < 1024 := by omega
  have hJ : (t.val / 2 % 2) * 128 + j.val < 256 := by omega
  show k0_pay2 (k0_pay15 (blkRowsLow m c t) (blkRowsHigh m c t) (blkUnitsLow m c t) (blkUnitsHigh m c t) (k0_pay15 (blkRowsLow m c (before t)) (blkRowsHigh m c (before t)) (blkUnitsLow m c (before t)) (blkUnitsHigh m c (before t)) (k0_pay4 (F := Ideal)))) (blkBiasLow m c t) (ix2 n j)
    = lowerK m c (((cfg0.win 6).blk t).view.emb (ix2 n j))
  rw [low_entry m c t ht n j ⟨_, hN⟩ ⟨_, hJ⟩ rfl rfl]
  refine (lower_apply _ _ _ _ _ _ _).symm.trans (congrArg (lowerK m c) (funext fun a => Fin.ext ?_))
  match a with
  | ⟨0, _⟩ => show t.val / 4 * 64 + n.val = win0_6.index t (0 : Fin 2) * 64 + 1 * n.val; omega
  | ⟨1, _⟩ => show (t.val / 2 % 2) * 128 + j.val = win0_6.index t (1 : Fin 2) * 128 + 1 * j.val; omega

theorem flushed_high_eq (c : Dev nD) (t : Fin cfg0.N) (hf : (cfg0.win 7).flush t = true) :
    (dats m 0 c).flushed 7 t = ((cfg0.win 7).blk t).view.read (Elt Ideal) (upperK m c) := by
  have ht : t.val % 2 = 1 := (flush0_7 t).mp hf
  have e := positions t
  have hlt : t.val < 64 := lt_of_lt_of_eq t.isLt N_0
  rw [flushed_high m c t ht]
  funext y
  obtain ⟨n, j, rfl⟩ : ∃ (n : Fin 64) (j : Fin 128), y = ix2 n j := ⟨y 0, y 1, eq_ix2 y⟩
  have hN : t.val / 4 * 64 + n.val < 1024 := by omega
  have hJ : (t.val / 2 % 2) * 128 + j.val < 256 := by omega
  show k0_pay3 (k0_pay1 (k0_pay14 (blkRowsLow m c t) (blkRowsHigh m c t) (blkUnitsLow m c t) (blkUnitsHigh m c t)) (k0_pay1 (k0_pay14 (blkRowsLow m c (before t)) (blkRowsHigh m c (before t)) (blkUnitsLow m c (before t)) (blkUnitsHigh m c (before t))) (k0_pay5 (F := Ideal)))) (blkBiasHigh m c t) (ix2 n j)
    = upperK m c (((cfg0.win 7).blk t).view.emb (ix2 n j))
  rw [high_entry m c t ht n j ⟨_, hN⟩ ⟨_, hJ⟩ rfl rfl]
  refine (upper_apply _ _ _ _ _ _ _).symm.trans (congrArg (upperK m c) (funext fun a => Fin.ext ?_))
  match a with
  | ⟨0, _⟩ => show t.val / 4 * 64 + n.val = win0_7.index t (0 : Fin 2) * 64 + 1 * n.val; omega
  | ⟨1, _⟩ => show (t.val / 2 % 2) * 128 + j.val = win0_7.index t (1 : Fin 2) * 128 + 1 * j.val; omega

/-! ## The written-back blocks tile the arrays -/

/-- A position is in point `t`'s output block iff each coordinate is in the block's range on its axis. -/
theorem mem_low_block (t : Fin cfg0.N) (i : S1024x256.Idx) :
    i ∈ ((cfg0.win 6).blk t).view.set ↔ ∀ a : Fin 2, win0_6.index t a * S64x128.size a ≤ (i a).val
      ∧ (i a).val < win0_6.index t a * S64x128.size a + S64x128.size a := by
  show i ∈ ((View.whole main_v10_0).slice (win0_6.rect t)).set ↔ _
  rw [View.set_slice_whole, Rect.mem_set_unit]
  exact Iff.rfl

theorem mem_high_block (t : Fin cfg0.N) (i : S1024x256.Idx) :
    i ∈ ((cfg0.win 7).blk t).view.set ↔ ∀ a : Fin 2, win0_7.index t a * S64x128.size a ≤ (i a).val
      ∧ (i a).val < win0_7.index t a * S64x128.size a + S64x128.size a := by
  show i ∈ ((View.whole main_v10_1).slice (win0_7.rect t)).set ↔ _
  rw [View.set_slice_whole, Rect.mem_set_unit]
  exact Iff.rfl

/-- The odd-numbered point whose output block holds position `i`. -/
def writer (i : S1024x256.Idx) : Fin cfg0.N :=
  ⟨4 * ((i 0).val / 64) + 2 * ((i 1).val / 128) + 1, by
    have h0 : (i 0).val < 1024 := (i 0).isLt
    have h1 : (i 1).val < 256 := (i 1).isLt
    rw [show cfg0.N = 64 from N_0]; omega⟩

theorem writer_val (i : S1024x256.Idx) : (writer i).val = 4 * ((i 0).val / 64) + 2 * ((i 1).val / 128) + 1 := rfl

theorem low_cover (i : S1024x256.Idx) :
    ∃ t : Fin cfg0.N, (cfg0.win 6).flush t = true ∧ i ∈ ((cfg0.win 6).blk t).view.set := by
  have h0 : (i 0).val < 1024 := (i 0).isLt
  have h1 : (i 1).val < 256 := (i 1).isLt
  have e := positions (writer i)
  have hv := writer_val i
  refine ⟨writer i, (flush0_6 (writer i)).mpr (by omega), ?_⟩
  rw [mem_low_block]
  intro a
  match a with
  | ⟨0, _⟩ =>
    show win0_6.index (writer i) (0 : Fin 2) * 64 ≤ (i 0).val ∧ (i 0).val < win0_6.index (writer i) (0 : Fin 2) * 64 + 64
    omega
  | ⟨1, _⟩ =>
    show win0_6.index (writer i) (1 : Fin 2) * 128 ≤ (i 1).val ∧ (i 1).val < win0_6.index (writer i) (1 : Fin 2) * 128 + 128
    omega

theorem high_cover (i : S1024x256.Idx) :
    ∃ t : Fin cfg0.N, (cfg0.win 7).flush t = true ∧ i ∈ ((cfg0.win 7).blk t).view.set := by
  have h0 : (i 0).val < 1024 := (i 0).isLt
  have h1 : (i 1).val < 256 := (i 1).isLt
  have e := positions (writer i)
  have hv := writer_val i
  refine ⟨writer i, (flush0_7 (writer i)).mpr (by omega), ?_⟩
  rw [mem_high_block]
  intro a
  match a with
  | ⟨0, _⟩ =>
    show win0_7.index (writer i) (0 : Fin 2) * 64 ≤ (i 0).val ∧ (i 0).val < win0_7.index (writer i) (0 : Fin 2) * 64 + 64
    omega
  | ⟨1, _⟩ =>
    show win0_7.index (writer i) (1 : Fin 2) * 128 ≤ (i 1).val ∧ (i 1).val < win0_7.index (writer i) (1 : Fin 2) * 128 + 128
    omega

/-! ## The arrays after the run -/

theorem final_low (c : Dev nD) : (dats m 0 c).arrAt 6 cfg0.N = lowerK m c :=
  (dats m 0 c).arrAt_eq_of_cover 6 (lowerK m c) (flushed_low_eq m c) low_cover

theorem final_high (c : Dev nD) : (dats m 0 c).arrAt 7 cfg0.N = upperK m c :=
  (dats m 0 c).arrAt_eq_of_cover 7 (upperK m c) (flushed_high_eq m c) high_cover

/-- Every weakly fair execution of the kernel's program ends with the first result array at the layer's lower
    ends, the second at its upper ends, and the arguments unchanged. -/
theorem run : θ_run defs (onTc (τ := τ) (main (F := Ideal))) ⟨m, fun _ => 0, ρ⟩ fun r => ∀ c : Dev nD,
      r.2.mem ((c : Thread nD τ).loc main_v10_0) = lowerK m c
      ∧ r.2.mem ((c : Thread nD τ).loc main_v10_1) = upperK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_low m c), (h c).2.1.trans (final_high m c), (h c).2.2⟩)
    (Cert.KernelIdeal.Value.run_blocks m ρ)

end Cert.IntervalLayer.Kernel

end
-- ==== Proof.lean ====
/-
  An interval-arithmetic dense layer: the tiled kernel and the plain reference compute one function.

  The layer takes an input interval `[xl, xr]` for each of 1024 rows and 256 features, a weight interval
  `[wl, wr]` for each of 256 features and 256 units, and a bias interval per unit. The weight and bias
  interval ends are formed from a centre and two spreads clipped below at zero (lower end: centre less the
  lower spread; upper end: centre plus the upper spread). For a row `n` and a unit `j` the output interval
  has

    lower end  (0 + ∑ over the 256 features k of the least of the four endpoint products at (n, k), (k, j)) + lower bias j
    upper end  (0 + ∑ over the 256 features k of the greatest of those four products)                      + upper bias j.

  The reference forms the whole rows × features × units array of products, takes the least and greatest,
  and sums along the features at once. The kernel works on blocks of 64 rows × 128 units × 128 features: for
  each (row block, unit block) it zeroes two accumulators at the first feature block, adds each feature
  block's sums onto them, and at the last feature block writes the accumulators plus the bias out. It is
  handed the weight ends transposed, and reads them back at transposed positions.

  Over the extended reals (a float is an exact extended real, every operation the exact one) the two agree
  entry by entry: the products, their nesting under least and greatest, the starting zero and the bias are
  the same terms on both sides, and the one difference — a sum over 256 features against the sum over the
  first 128 plus the sum over the last 128 — is re-bracketing of a finite sum in a commutative monoid. No
  finiteness of the inputs is used: addition of extended reals is commutative and associative at the
  infinities too. The idealized kernel is the kernel's own text read over the extended reals (no rewrite
  was applied to it), so there is nothing to preserve.

  The modules: IntervalSpec (the layer as one function, and the two-block sum), ReferenceValue (the
  reference is that function), KernelPieces (what one grid point leaves in each buffer), KernelArithmetic
  (those expressions entry by entry), KernelBlocks (where each block sits in its array), KernelHost (the
  weight and bias ends as the kernel is handed them), KernelValue (one written entry is the layer's value),
  KernelArrays (the written blocks tile the result arrays).
-/
import proofs.«119556_j82231443849327_1_alg».proof.Defs
import proofs.«119556_j82231443849327_1_alg».proof.Proof.Gen.Kernel
import proofs.«119556_j82231443849327_1_alg».proof.Proof.Gen.Kernel.Skeleton
import proofs.«119556_j82231443849327_1_alg».proof.Proof.Gen.Kernel.Launch
import proofs.«119556_j82231443849327_1_alg».proof.Proof.Gen.Kernel.Points
import proofs.«119556_j82231443849327_1_alg».proof.Proof.Gen.Kernel.Frame
import proofs.«119556_j82231443849327_1_alg».proof.Proof.Gen.KernelIdeal
import proofs.«119556_j82231443849327_1_alg».proof.Proof.Gen.KernelIdeal.Skeleton
import proofs.«119556_j82231443849327_1_alg».proof.Proof.Gen.KernelIdeal.Launch
import proofs.«119556_j82231443849327_1_alg».proof.Proof.Gen.KernelIdeal.Points
import proofs.«119556_j82231443849327_1_alg».proof.Proof.Gen.KernelIdeal.Frame
import proofs.«119556_j82231443849327_1_alg».proof.Proof.Gen.ReferenceIdeal
import proofs.«119556_j82231443849327_1_alg».proof.Proof.Gen.Pre_finite_inputs
import proofs.«119556_j82231443849327_1_alg».proof.Proof.Gen.KernelIdeal.Value
import proofs.«119556_j82231443849327_1_alg».proof.Proof.Gen.ReferenceIdeal.Run
import proofs.«119556_j82231443849327_1_alg».proof.Proof.Gen.ReferenceIdeal.Read
import proofs.«119556_j82231443849327_1_alg».proof.Proof.ReferenceValue
import proofs.«119556_j82231443849327_1_alg».proof.Proof.KernelArrays
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealized kernel is the kernel's own text: no rewrite to account for. -/
theorem preserves : Cert.preserves_Kernel_KernelIdeal := trivial

/-- From arguments that agree, the kernel's two result arrays end at the layer's lower and upper ends
    (the blocks the grid writes, tiled) and so do the reference's (its operations read one at a time):
    the same two functions of the same arrays. -/
theorem algebraic : Cert.algebraic_KernelIdeal_ReferenceIdeal := by
  intro m ρ m' ρ' _ hagree
  refine ⟨fun c => Cert.IntervalLayer.Kernel.lowerK m c, fun c => Cert.IntervalLayer.Kernel.upperK m c,
    Cert.IntervalLayer.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v31_eq _ _ _ _ _ _ _).trans ?_
    refine (Cert.IntervalLayer.Reference.lower_result _ _ _ _ _ _ _).trans ?_
    rw [(hagree c).1, (hagree c).2.1, (hagree c).2.2.1, (hagree c).2.2.2.1, (hagree c).2.2.2.2.1, (hagree c).2.2.2.2.2.1,
      (hagree c).2.2.2.2.2.2.1]
    rfl
  · refine (Cert.ReferenceIdeal.Read.val_main_v37_eq _ _ _ _ _ _ _).trans ?_
    refine (Cert.IntervalLayer.Reference.upper_result _ _ _ _ _ _ _).trans ?_
    rw [(hagree c).1, (hagree c).2.1, (hagree c).2.2.1, (hagree c).2.2.2.1, (hagree c).2.2.2.2.1, (hagree c).2.2.2.2.2.1,
      (hagree c).2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
